-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_1600000" .f32 0x3527C5AC#32 ((1 / 1600000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S3200000 : Shape := ⟨1, ![3200000]⟩
abbrev S_ : Shape := ⟨0, ![]⟩
abbrev S1x3200000 : Shape := ⟨2, ![1, 3200000]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_
  slices_S2x3200000_S1x3200000_0_0 : S2x3200000.Slices ![0, 0] S1x3200000
  shapeCasts_S1x3200000_S3200000 : S1x3200000.ShapeCasts S3200000

variable [Facts]

def fn_part1 {F : FTy → Type} [FloatOps F] (main_arg1 : IVec S2x3200000 32) (main_v13 : IVec S_ 1) (main_v15 : IVec S3200000 32) (main_v16 : IVec S3200000 32) : IVec S_ 1 :=
  let main_v17 : IVec S3200000 1 := cmpi .sge main_v15 main_v16
  let main_c_5 : IVec S_ 1 := constantI S_ 1 1#1
  let main_v18 : IVec S_ 1 := (fun x v => Host.reduce IntOp.andi x v reducesTo_S3200000_S_d0 h_S_) main_v17 main_c_5
  let main_v19 : IVec S_ 1 := andi main_v13 main_v18
  let main_v20 : IVec S1x3200000 32 := (extractStridedSlice S1x3200000 ![0, 0] · slices_S2x3200000_S1x3200000_0_0) main_arg1
  let main_v21 : IVec S3200000 32 := shapeCast S3200000 main_v20 shapeCasts_S1x3200000_S3200000
  let main_c_6 : IVec S_ 32 := constantI S_ 32 100000#32
  let main_v22 : IVec S3200000 32 := broadcastInDim S3200000 ![] bcast_S_S3200000 main_c_6
  let main_v23 : IVec S3200000 1 := cmpi .slt main_v21 main_v22
  let main_c_7 : IVec S_ 1 := constantI S_ 1 1#1
  let main_v24 : IVec S_ 1 := (fun x v => Host.reduce IntOp.andi x v reducesTo_S3200000_S_d0 h_S_) main_v23 main_c_7
  let main_v25 : IVec S_ 1 := andi main_v19 main_v24
  main_v25

def fn {F : FTy → Type} [FloatOps F] (main_arg0 : FVec F S100000x16 .f32) (main_arg1 : IVec S2x3200000 32) (main_arg2 : FVec F S3200000 .f32) (main_arg3 : IVec S3200000 1) (main_arg4 : FVec F S100000x16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x16 .f32 := Host.absf main_arg4
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  let main_v14 : IVec S1x3200000 32 := (extractStridedSlice S1x3200000 ![0, 0] · slices_S2x3200000_S1x3200000_0_0) main_arg1
  let main_v15 : IVec S3200000 32 := shapeCast S3200000 main_v14 shapeCasts_S1x3200000_S3200000
  let main_c_4 : IVec S_ 32 := constantI S_ 32 4294867296#32
  let main_v16 : IVec S3200000 32 := broadcastInDim S3200000 ![] bcast_S_S3200000 main_c_4
  fn_part1 (F := F) main_arg1 main_v13 main_v15 main_v16
-- ==== Kernel.lean ====
abbrev S100000x16 : Shape := ⟨2, ![100000, 16]⟩
abbrev S2x3200000 : Shape := ⟨2, ![2, 3200000]⟩
abbrev S3200000 : Shape := ⟨1, ![3200000]⟩
abbrev S1x3200000 : Shape := ⟨2, ![1, 3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x16 : Shape := ⟨2, ![3200000, 16]⟩
abbrev S12500x128 : Shape := ⟨2, ![12500, 128]⟩
abbrev S12500 : Shape := ⟨1, ![12500]⟩
abbrev S12500x1 : Shape := ⟨2, ![12500, 1]⟩

abbrev nBuf : Space → Nat
  | .hbm => 47
  | .vmem => 3
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000, .f32⟩
  | .hbm, ⟨3, _⟩ => ⟨S3200000, .i1⟩
  | .hbm, ⟨4, _⟩ => ⟨S100000x16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S1, .i32⟩
  | .hbm, ⟨18, _⟩ => ⟨S_, .i32⟩
  | .hbm, ⟨19, _⟩ => ⟨S3200000x1, .i32⟩
  | .hbm, ⟨20, _⟩ => ⟨S3200000x1, .i1⟩
  | .hbm, ⟨21, _⟩ => ⟨S1x1, .i32⟩
  | .hbm, ⟨22, _⟩ => ⟨S3200000x1, .i32⟩
  | .hbm, ⟨23, _⟩ => ⟨S3200000x1, .i1⟩
  | .hbm, ⟨24, _⟩ => ⟨S3200000x1, .i1⟩
  | .hbm, ⟨25, _⟩ => ⟨S_, .i1⟩
  | .hbm, ⟨26, _⟩ => ⟨S3200000, .i1⟩
  | .hbm, ⟨27, _⟩ => ⟨S3200000x16, .f32⟩
  | .hbm, ⟨28, _⟩ => ⟨S3200000x16, .i1⟩
  | .hbm, ⟨29, _⟩ => ⟨S_, .f32⟩
  | .hbm, ⟨30, _⟩ => ⟨S3200000x16, .f32⟩
  | .hbm, ⟨31, _⟩ => ⟨S3200000x16, .f32⟩
  | .hbm, ⟨32, _⟩ => ⟨S_, .f32⟩
  | .hbm, ⟨33, _⟩ => ⟨S_, .f32⟩
  | .hbm, ⟨34, _⟩ => ⟨S3200000, .f32⟩
  | .hbm, ⟨35, _⟩ => ⟨S3200000, .f32⟩
  | .hbm, ⟨36, _⟩ => ⟨S3200000x1, .f32⟩
  | .hbm, ⟨37, _⟩ => ⟨S3200000x16, .f32⟩
  | .hbm, ⟨38, _⟩ => ⟨S3200000x16, .f32⟩
  | .hbm, ⟨39, _⟩ => ⟨S_, .f32⟩
  | .hbm, ⟨40, _⟩ => ⟨S100000x16, .f32⟩
  | .hbm, ⟨41, _⟩ => ⟨S3200000x1, .i32⟩
  | .hbm, ⟨42, _⟩ => ⟨S100000x16, .f32⟩
  | .hbm, ⟨43, _⟩ => ⟨S12500x128, .f32⟩
  | .hbm, ⟨44, _⟩ => ⟨S12500x128, .f32⟩
  | .hbm, ⟨45, _⟩ => ⟨S1x1, .f32⟩
  | .hbm, ⟨46, _⟩ => ⟨S_, .f32⟩
  | .local _ .vmem, ⟨0, _⟩ => ⟨S12500x128, .f32⟩
  | .local _ .vmem, ⟨1, _⟩ => ⟨S12500x128, .f32⟩
  | .local _ .vmem, ⟨2, _⟩ => ⟨S1x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12500x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S100000x16_S12500x128 : S100000x16.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  reduces_S12500x128_S12500 : S12500x128.Reduces [1] S12500
  shapeCasts_S12500_S12500x1 : S12500.ShapeCasts S12500x1
  reduces_S12500x1_S1 : S12500x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S12500x128.size a ≤ S12500x128.size a
  hwx0_0 : ∀ i : grid0.Coords, EltTy.bits .f32 = 32 ∨ (Rect.block (s := S12500x128) S12500x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12500x128.size a ≤ S12500x128.size a
  hwx0_1 : ∀ i : grid0.Coords, EltTy.bits .f32 = 32 ∨ (Rect.block (s := S12500x128) S12500x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_v12) S12500x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S12500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S3200000 : Shape := ⟨1, ![3200000]⟩
abbrev S1x3200000 : Shape := ⟨2, ![1, 3200000]⟩
abbrev S_ : Shape := ⟨0, ![]⟩
abbrev S3200000x1 : Shape := ⟨2, ![3200000, 1]⟩
abbrev S3200000x16 : Shape := ⟨2, ![3200000, 16]⟩

abbrev nBuf : Space → Nat
  | .hbm => 34
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S3200000, .f32⟩
  | .hbm, ⟨3, _⟩ => ⟨S3200000, .i1⟩
  | .hbm, ⟨4, _⟩ => ⟨S100000x16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S_, .f32⟩
  | .hbm, ⟨10, _⟩ => ⟨S3200000, .f32⟩
  | .hbm, ⟨11, _⟩ => ⟨S3200000, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S100000x16, .f32⟩
  | .hbm, ⟨29, _⟩ => ⟨S100000x16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  reducesTo_S100000x16_S_d0_1 : S100000x16.ReducesTo [0, 1] S_
  h_S_ : 0 < S_.numel
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Loss.lean ====
/-
  The loss both programs compute, as mathematics over the extended reals.

  With `Ad` the aggregated node features ([100000, 16]) and `R` the residual of the same shape, the loss is the mean of the
  squared differences: `(∑ over all (n, f) of (Ad[n, f] - R[n, f])²) · (1 / 1600000)`.
  One program sums the 1,600,000 squares after laying both arrays out as [12500, 128] (row-major, so the same elements in
  the same order), first along each row of 128 and then down the 12500 row sums, and multiplies by the reciprocal of the
  count; the other sums over every (n, f) at once and divides by the count. Addition on the extended reals is commutative
  and associative, so the two sums are one number (`sum_lanes`), and dividing an extended real by the nonzero real 1600000
  is multiplying it by 1/1600000 (`div_by_count`); neither step needs the entries to be finite.

  Also here, since they are facts about machine integers only: a left fold of `and` over ones is one
  (`reduce_andi_of_all`), and a signed 32-bit index `s` with `-100000 ≤ s < 100000`, counted from the end when negative
  (`s + 100000`), lands in `0 … 99999` (`wrap_in_range`).
-/
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.Loss

open Idealize.ShloMosaic Idealize.ShloMosaic.ValueIdx Idealize.ShloMosaic.StableHlo.Predicate

/-- The node-feature arrays' shape, and the same 1,600,000 elements as rows of 128. -/
abbrev Nodes : Shape := ⟨2, ![100000, 16]⟩
abbrev Lanes : Shape := ⟨2, ![12500, 128]⟩

/-- The sum of the squared differences of two node-feature arrays. -/
def sumSq (A R : Nodes.Idx → EReal) : EReal := ∑ i : Nodes.Idx, (A i - R i) * (A i - R i)

/-- Their mean: the sum times the reciprocal of the number of elements. -/
def meanSq (A R : Nodes.Idx → EReal) : EReal := sumSq A R * ((1 / 1600000 : ℝ) : EReal)

/-- The pattern of `1600000.0` denotes the real 1600000 (an integer below 2²⁴, exact in single precision). -/
theorem ofBits_1600000 : Ideal.ofBits .f32 0x49C35000#32 = ((1600000 : ℝ) : EReal) := by
  simp [Ideal.ofBits, Ideal.ieee, -EReal.coe_mul]; norm_num

/-- Summing the squares row by row of the [12500, 128] layout, then over the rows, is summing them over the
    [100000, 16] array: the layout change is a bijection of the index sets, and the double sum is the sum over pairs. -/
theorem sum_lanes (h : Nodes.ShapeCasts Lanes) (A R : Nodes.Idx → EReal) :
    (∑ r : Fin 12500, ∑ l : Fin 128, (shapeCast Lanes A h (ix2 r l) - shapeCast Lanes R h (ix2 r l))
        * (shapeCast Lanes A h (ix2 r l) - shapeCast Lanes R h (ix2 r l))) = sumSq A R := by
  rw [← sum_idx2 (fun j : Lanes.Idx => (shapeCast Lanes A h j - shapeCast Lanes R h j) * (shapeCast Lanes A h j - shapeCast Lanes R h j))]
  unfold shapeCast sumSq
  exact Equiv.sum_comp (Shape.reshapeEquiv h) (fun i => (A i - R i) * (A i - R i))

/-- The same elements under another shape have the same total. -/
theorem total_of_cast {s t : Shape} (h : s.ShapeCasts t) (x : s.Idx → EReal) :
    ∑ j : t.Idx, shapeCast t x h j = ∑ i : s.Idx, x i := by
  unfold shapeCast
  exact Equiv.sum_comp (Shape.reshapeEquiv h) x

/-- The partial sums along some axes, added up, are the total: every index falls in exactly one partial sum. -/
theorem total_of_reduce {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The squares summed over the [12500, 128] layout are the squares summed over the [100000, 16] arrays. -/
theorem sumSq_lanes (h : Nodes.ShapeCasts Lanes) (A R : Nodes.Idx → EReal) :
    (∑ j : Lanes.Idx, (shapeCast Lanes A h j - shapeCast Lanes R h j) * (shapeCast Lanes A h j - shapeCast Lanes R h j)) = sumSq A R := by
  unfold shapeCast sumSq
  exact Equiv.sum_comp (Shape.reshapeEquiv h) (fun i => (A i - R i) * (A i - R i))

/-- Dividing by the element count is multiplying by its reciprocal, at every extended real. -/
theorem div_by_count (x : EReal) : Ideal.div x (Ideal.ofBits .f32 0x49C35000#32) = x * ((1 / 1600000 : ℝ) : EReal) := by
  rw [ofBits_1600000]; exact Ideal.div_coe (by norm_num) x

/-- A left fold of `and` from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]; exact foldl_andi_ones f hf l

/-- So a reduction by `and`, from one, of an array of ones is one at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  unfold Host.reduce
  rw [hinit]
  exact foldl_andi_ones (fun n => x (s.rowMajor.symm n)) (fun n => hx _) _

/-- A source index `s` with `-100000 ≤ s < 100000` (signed), replaced by `s + 100000` when negative, satisfies
    `0 ≤ · ≤ 99999`: the sum does not wrap, since `0 ≤ s + 100000 < 100000` there. -/
theorem wrap_in_range (s : BitVec 32) (h1 : IntOp.cmpi .sge s 4294867296#32 = 1#1) (h2 : IntOp.cmpi .slt s 100000#32 = 1#1) :
    IntOp.andi (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  have g1 : (-100000 : Int) ≤ s.toInt := by
    have h := (ofBool_eq_one_iff ((4294867296#32 : BitVec 32).sle s)).mp h1
    have := BitVec.sle_iff_toInt_le.mp h; omega
  have g2 : s.toInt < 100000 := by
    have h := (ofBool_eq_one_iff (s.slt (100000#32 : BitVec 32))).mp h2
    have := BitVec.slt_iff_toInt_lt.mp h; omega
  have key : ∀ w : BitVec 32, 0 ≤ w.toInt → w.toInt ≤ 99999 →
      IntOp.andi (IntOp.cmpi .sge w 0#32) (IntOp.cmpi .sle w 99999#32) = 1#1 := by
    intro w hw0 hw1
    rw [IntOp.andi_eq_one]
    exact ⟨(ofBool_eq_one_iff ((0#32 : BitVec 32).sle w)).mpr (BitVec.sle_iff_toInt_le.mpr (by omega)),
      (ofBool_eq_one_iff (w.sle (99999#32 : BitVec 32))).mpr (BitVec.sle_iff_toInt_le.mpr (by omega))⟩
  by_cases hneg : s.slt (0#32 : BitVec 32) = true
  · have hs : s.toInt < 0 := by have := BitVec.slt_iff_toInt_lt.mp hneg; omega
    have hc : IntOp.cmpi .slt s 0#32 = 1#1 := (ofBool_eq_one_iff (s.slt (0#32 : BitVec 32))).mpr hneg
    rw [hc, select_one]
    have ha : (IntOp.addi s 100000#32).toInt = s.toInt + 100000 := by
      show (s + 100000#32).toInt = _
      rw [BitVec.toInt_add, e2, Int.bmod_eq_of_le (by push_cast; omega) (by push_cast; omega)]
    exact key _ (by omega) (by omega)
  · have hs : 0 ≤ s.toInt := by
      have : ¬ s.toInt < (0#32 : BitVec 32).toInt := fun h => hneg (BitVec.slt_iff_toInt_lt.mpr h)
      omega
    have hc : IntOp.cmpi .slt s 0#32 = 0#1 := by
      show BitVec.ofBool (s.slt (0#32 : BitVec 32)) = 0#1
      rw [Bool.eq_false_iff.mpr hneg]; rfl
    rw [hc, select_zero]
    exact key _ hs (by omega)

end Cert.Loss

end
-- ==== Proof.HostSide.lean ====
/-
  The kernel program's host side before the launch, read as values.

  Before the launch the program computes, with ordinary array operations, `Ad[dst] += (mask ? a : 0) · d[src]` over the
  3,200,000 edges: the edge list's two rows (sources, destinations); a source counted from the end when negative; the rows
  `d[src]` gathered, each replaced by a fill pattern where the start index is outside `0 … 99999`; the masked weights; the
  products scattered and added, from zero, into the destinations' rows; and `Ad` and the residual laid out as [12500, 128]
  for the launch. The operations come in five stretches; each stretch is read here from ANY contents of the buffers (what
  it writes as a function of what it reads, and which buffers it leaves alone), and the five are then composed. The take's
  stretch is read in three parts (the start indices, the in-range mask, the select).
-/
import proofs.«425443_j82978768159398_3_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F] [Named F]

/-! ## The host side before the launch, as functions of the arrays

`Ad[dst] += (mask ? a : 0) · d[src]` over the edges, then the [100000, 16] result laid out as [12500, 128]. -/

/-- Row 0 of the edge list: each edge's source node. -/
def edgeSrc (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- Row 1 of the edge list: each edge's destination node. -/
def edgeDst (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- A negative source counts from the end of the table: `s + 100000` where `s < 0`, else `s`. -/
def wrappedOf (s : (⟨S3200000, .i32⟩ : BufTy).Contents (Elt F)) : (⟨S3200000, .i32⟩ : BufTy).Contents (Elt F) :=
  select (cmpi .slt s (broadcastInDim S3200000 ![] bcast_S_S3200000 (constantI S_ 32 0#32)))
    (addi s (broadcastInDim S3200000 ![] bcast_S_S3200000 (constantI S_ 32 100000#32))) s

/-- The wrapped sources as the gather's column of start indices. -/
def rowIdxOf (s : (⟨S3200000, .i32⟩ : BufTy).Contents (Elt F)) : (⟨S3200000x1, .i32⟩ : BufTy).Contents (Elt F) :=
  broadcastInDim S3200000x1 ![0] bcast_S3200000_S3200000x1_0 (wrappedOf (F := F) s)

/-- Per edge: is the start index a row of the table, `0 ≤ r ≤ 99999`? -/
def okOf (r : (⟨S3200000x1, .i32⟩ : BufTy).Contents (Elt F)) : (⟨S3200000, .i1⟩ : BufTy).Contents (Elt F) :=
  Host.reduce IntOp.andi
    (andi (cmpi .sge r (broadcastInDim S3200000x1 ![] bcast_S_S3200000x1 (constantI S_ 32 0#32)))
      (cmpi .sle r (broadcastInDim S3200000x1 ![0, 1] bcast_S1x1_S3200000x1_0_1 (broadcastInDim S1x1 ![1] bcast_S1_S1x1_1 (constantI S1 32 99999#32)))))
    (constantI S_ 1 1#1) reducesTo_S3200000x1_S3200000_d1 h_S_

/-- The gathered rows `d[src]`. -/
def rowsOf (d : (⟨S100000x16, .f32⟩ : BufTy).Contents (Elt F)) (s : (⟨S3200000, .i32⟩ : BufTy).Contents (Elt F)) : (⟨S3200000x16, .f32⟩ : BufTy).Contents (Elt F) :=
  Host.gather gather_S100000x16_S3200000x1_S3200000x16_1_0_n_n_0_1_116 d (rowIdxOf (F := F) s)

/-- What the kernel's take of the table returns: the gathered row where the start index is in range, the fill pattern
    where it is not. -/
def takenOf (d : (⟨S100000x16, .f32⟩ : BufTy).Contents (Elt F)) (s : (⟨S3200000, .i32⟩ : BufTy).Contents (Elt F)) : (⟨S3200000x16, .f32⟩ : BufTy).Contents (Elt F) :=
  select (broadcastInDim S3200000x16 ![0] bcast_S3200000_S3200000x16_0 (okOf (F := F) (rowIdxOf (F := F) s))) (rowsOf d s)
    (broadcastInDim S3200000x16 ![] bcast_S_S3200000x16 (constant S_ .f32 0x7FC00000#32))

/-- The edge weights: `a` where the mask is set, `z` (zero) elsewhere. -/
def weightsOf (a : (⟨S3200000, .f32⟩ : BufTy).Contents (Elt F)) (k : (⟨S3200000, .i1⟩ : BufTy).Contents (Elt F)) (z : (⟨S_, .f32⟩ : BufTy).Contents (Elt F)) : (⟨S3200000, .f32⟩ : BufTy).Contents (Elt F) :=
  select k a (broadcastInDim S3200000 ![] bcast_S_S3200000 (id z))

/-- The scatter-add, from zero, of the weighted rows `w[e] · t[e, :]` into row `dst[e]`. -/
def spmvOf (dst : (⟨S3200000, .i32⟩ : BufTy).Contents (Elt F)) (w : (⟨S3200000, .f32⟩ : BufTy).Contents (Elt F)) (t : (⟨S3200000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf (broadcastInDim S3200000x16 ![0, 1] bcast_S3200000x1_S3200000x16_0_1 (broadcastInDim S3200000x1 ![0] bcast_S3200000_S3200000x1_0 w)) t)

/-! ## Each stretch of host operations, from any contents `G` of the buffers -/

open Idealize.ShloMosaic.StableHlo (after)

/-- Running two stretches of host operations one after the other. -/
theorem after_append {Val : EltTy → Type} (l₁ l₂ : List (HloOp τ sig Val)) (G : Valuation τ sig Val) :
    after (l₁ ++ l₂) G = after l₂ (after l₁ G) := by
  induction l₁ generalizing G with
  | nil => rfl
  | cons op l ih => simp only [List.cons_append, StableHlo.after_cons, ih]

variable (G : Valuation τ sig (Elt F))

theorem s0_src : (after (hostOps0 (F := F)) G (Proc.devRef .tc main_v1) : S3200000.Idx → BitVec 32) = edgeSrc (F := F) (G (Proc.devRef .tc main_arg1)) := by
  after_results_simp
  rfl

theorem s0_dst : (after (hostOps0 (F := F)) G (Proc.devRef .tc main_v3) : S3200000.Idx → BitVec 32) = edgeDst (F := F) (G (Proc.devRef .tc main_arg1)) := by
  after_results_simp
  rfl

theorem s2_cst : (after (hostOps0_2 (F := F)) G (Proc.devRef .tc main_cst) : S_.Idx → Elt F .f32) = constant S_ .f32 0x00000000#32 := by
  after_results_simp

theorem s3_weights : (after (hostOps0_3 (F := F)) G (Proc.devRef .tc main_v5) : S3200000.Idx → Elt F .f32)
    = weightsOf (G (Proc.devRef .tc main_arg2)) (G (Proc.devRef .tc main_arg3)) (G (Proc.devRef .tc main_cst)) := by
  after_results_simp
  unfold weightsOf
  simp only [cast_eq]

theorem s4_lanes : (after (hostOps0_4 (F := F)) G (Proc.devRef .tc main_v12) : S12500x128.Idx → Elt F .f32)
    = shapeCast S12500x128 (spmvOf (G (Proc.devRef .tc main_v3)) (G (Proc.devRef .tc main_v5)) (G (Proc.devRef .tc main_v4))) shapeCasts_S100000x16_S12500x128 := by
  after_results_simp
  rfl

theorem s4_resid : (after (hostOps0_4 (F := F)) G (Proc.devRef .tc main_v13) : S12500x128.Idx → Elt F .f32)
    = shapeCast S12500x128 (G (Proc.devRef .tc main_arg4)) shapeCasts_S100000x16_S12500x128 := by
  after_results_simp
  rfl

theorem s1_rowIdx : (after (List.take 8 (hostOps0_1 (F := F))) G (Proc.devRef .tc main_call0_v5) : S3200000x1.Idx → BitVec 32)
    = rowIdxOf (F := F) (G (Proc.devRef .tc main_v1)) := by
  simp only [hostOps0_1, List.take_succ_cons, List.take_zero]
  after_results_simp
  unfold rowIdxOf wrappedOf
  simp only [cast_eq]

theorem s1_ok : (after (List.take 10 (List.drop 8 (hostOps0_1 (F := F)))) G (Proc.devRef .tc main_call0_v12) : S3200000.Idx → BitVec 1)
    = okOf (F := F) (G (Proc.devRef .tc main_call0_v5)) := by
  simp only [hostOps0_1, List.drop_succ_cons, List.drop_zero, List.take_succ_cons, List.take_zero]
  after_results_simp
  unfold okOf
  simp only [cast_eq]

theorem s1_select : (after (List.drop 10 (List.drop 8 (hostOps0_1 (F := F)))) G (Proc.devRef .tc main_v4) : S3200000x16.Idx → Elt F .f32)
    = select (broadcastInDim S3200000x16 ![0] bcast_S3200000_S3200000x16_0 (G (Proc.devRef .tc main_call0_v12)))
        (Host.gather gather_S100000x16_S3200000x1_S3200000x16_1_0_n_n_0_1_116 (G (Proc.devRef .tc main_arg0)) (G (Proc.devRef .tc main_call0_v5)))
        (broadcastInDim S3200000x16 ![] bcast_S_S3200000x16 (constant S_ .f32 0x7FC00000#32)) := by
  simp only [hostOps0_1, List.drop_succ_cons, List.drop_zero]
  after_results_simp
  simp only [cast_eq]

/-! What each stretch leaves alone. -/

theorem keep0_arg0 : after (hostOps0 (F := F)) G (Proc.devRef .tc main_arg0) = G (Proc.devRef .tc main_arg0) := by
  after_results_simp
theorem keep0_arg2 : after (hostOps0 (F := F)) G (Proc.devRef .tc main_arg2) = G (Proc.devRef .tc main_arg2) := by
  after_results_simp
theorem keep0_arg3 : after (hostOps0 (F := F)) G (Proc.devRef .tc main_arg3) = G (Proc.devRef .tc main_arg3) := by
  after_results_simp
theorem keep0_arg4 : after (hostOps0 (F := F)) G (Proc.devRef .tc main_arg4) = G (Proc.devRef .tc main_arg4) := by
  after_results_simp

theorem keep1_v3 : after (hostOps0_1 (F := F)) G (Proc.devRef .tc main_v3) = G (Proc.devRef .tc main_v3) := by
  after_results_simp
theorem keep1_arg2 : after (hostOps0_1 (F := F)) G (Proc.devRef .tc main_arg2) = G (Proc.devRef .tc main_arg2) := by
  after_results_simp
theorem keep1_arg3 : after (hostOps0_1 (F := F)) G (Proc.devRef .tc main_arg3) = G (Proc.devRef .tc main_arg3) := by
  after_results_simp
theorem keep1_arg4 : after (hostOps0_1 (F := F)) G (Proc.devRef .tc main_arg4) = G (Proc.devRef .tc main_arg4) := by
  after_results_simp

theorem keep2_v4 : after (hostOps0_2 (F := F)) G (Proc.devRef .tc main_v4) = G (Proc.devRef .tc main_v4) := by
  after_results_simp
theorem keep2_v3 : after (hostOps0_2 (F := F)) G (Proc.devRef .tc main_v3) = G (Proc.devRef .tc main_v3) := by
  after_results_simp
theorem keep2_arg2 : after (hostOps0_2 (F := F)) G (Proc.devRef .tc main_arg2) = G (Proc.devRef .tc main_arg2) := by
  after_results_simp
theorem keep2_arg3 : after (hostOps0_2 (F := F)) G (Proc.devRef .tc main_arg3) = G (Proc.devRef .tc main_arg3) := by
  after_results_simp
theorem keep2_arg4 : after (hostOps0_2 (F := F)) G (Proc.devRef .tc main_arg4) = G (Proc.devRef .tc main_arg4) := by
  after_results_simp

theorem keep3_v4 : after (hostOps0_3 (F := F)) G (Proc.devRef .tc main_v4) = G (Proc.devRef .tc main_v4) := by
  after_results_simp
theorem keep3_v3 : after (hostOps0_3 (F := F)) G (Proc.devRef .tc main_v3) = G (Proc.devRef .tc main_v3) := by
  after_results_simp
theorem keep3_arg4 : after (hostOps0_3 (F := F)) G (Proc.devRef .tc main_arg4) = G (Proc.devRef .tc main_arg4) := by
  after_results_simp

theorem keep1a_arg0 : after (List.take 8 (hostOps0_1 (F := F))) G (Proc.devRef .tc main_arg0) = G (Proc.devRef .tc main_arg0) := by
  simp only [hostOps0_1, List.take_succ_cons, List.take_zero]
  after_results_simp

theorem keep1b_arg0 : after (List.take 10 (List.drop 8 (hostOps0_1 (F := F)))) G (Proc.devRef .tc main_arg0) = G (Proc.devRef .tc main_arg0) := by
  simp only [hostOps0_1, List.drop_succ_cons, List.drop_zero, List.take_succ_cons, List.take_zero]
  after_results_simp

theorem keep1b_rowIdx : after (List.take 10 (List.drop 8 (hostOps0_1 (F := F)))) G (Proc.devRef .tc main_call0_v5) = G (Proc.devRef .tc main_call0_v5) := by
  simp only [hostOps0_1, List.drop_succ_cons, List.drop_zero, List.take_succ_cons, List.take_zero]
  after_results_simp

/-- The whole take: the three parts in order. -/
theorem s1_taken : (after (hostOps0_1 (F := F)) G (Proc.devRef .tc main_v4) : S3200000x16.Idx → Elt F .f32)
    = takenOf (G (Proc.devRef .tc main_arg0)) (G (Proc.devRef .tc main_v1)) := by
  have e : (hostOps0_1 (F := F)) = List.take 8 hostOps0_1 ++ (List.take 10 (List.drop 8 hostOps0_1) ++ List.drop 10 (List.drop 8 hostOps0_1)) := by
    rw [List.take_append_drop, List.take_append_drop]
  rw [e, after_append, after_append, s1_select, s1_ok, keep1b_rowIdx, keep1b_arg0, s1_rowIdx, keep1a_arg0]
  unfold takenOf rowsOf
  rfl

/-! ## The two arrays the launch stages, as the region finds them -/

variable (m : (ℓ : Loc nD τ sig) → Buf (Elt F) ℓ)

/-- The host operations before the launch, stretch after stretch. -/
theorem V0_stretches (c : Dev nD) : V0 m c
    = after hostOps0_4 (after hostOps0_3 (after hostOps0_2 (after hostOps0_1 (after hostOps0 (fun b => m (c, b)))))) := by
  show after (List.flatten [hostOps0, hostOps0_1, hostOps0_2, hostOps0_3, hostOps0_4]) _ = _
  rw [show List.flatten [hostOps0 (F := F), hostOps0_1, hostOps0_2, hostOps0_3, hostOps0_4]
        = hostOps0 ++ (hostOps0_1 ++ (hostOps0_2 ++ (hostOps0_3 ++ hostOps0_4))) from by
      simp only [List.flatten_cons, List.flatten_nil, List.append_nil],
    after_append, after_append, after_append, after_append]

/-- `Ad` as the kernel's host side computes it from the five arguments. -/
def spmvK (d : (⟨S100000x16, .f32⟩ : BufTy).Contents (Elt F)) (e : (⟨S2x3200000, .i32⟩ : BufTy).Contents (Elt F)) (a : (⟨S3200000, .f32⟩ : BufTy).Contents (Elt F)) (k : (⟨S3200000, .i1⟩ : BufTy).Contents (Elt F)) : (⟨S100000x16, .f32⟩ : BufTy).Contents (Elt F) :=
  spmvOf (edgeDst (F := F) e) (weightsOf a k (constant S_ .f32 0x00000000#32)) (takenOf d (edgeSrc (F := F) e))

/-- Window 0's array: `Ad` in the [12500, 128] layout. -/
theorem V_lanes (c : Dev nD) : (V m c main_v12 : S12500x128.Idx → Elt F .f32)
    = shapeCast S12500x128 (spmvK (m ((c : Thread nD τ).loc main_arg0)) (m ((c : Thread nD τ).loc main_arg1)) (m ((c : Thread nD τ).loc main_arg2)) (m ((c : Thread nD τ).loc main_arg3))) shapeCasts_S100000x16_S12500x128 := by
  show V0 m c (Proc.devRef .tc main_v12) = _
  rw [V0_stretches, s4_lanes, s3_weights, keep3_v4, keep3_v3, s2_cst, keep2_v4, keep2_v3, keep2_arg2, keep2_arg3,
    s1_taken, keep1_v3, keep1_arg2, keep1_arg3, s0_src, s0_dst, keep0_arg0, keep0_arg2, keep0_arg3]
  rfl

/-- Window 1's array: the residual in the same layout. -/
theorem V_resid (c : Dev nD) : (V m c main_v13 : S12500x128.Idx → Elt F .f32)
    = shapeCast S12500x128 (m ((c : Thread nD τ).loc main_arg4)) shapeCasts_S100000x16_S12500x128 := by
  show V0 m c (Proc.devRef .tc main_v13) = _
  rw [V0_stretches, s4_resid, keep3_arg4, keep2_arg4, keep1_arg4, keep0_arg4]

end Cert.KernelIdeal.Hand

end
-- ==== Proof.Launched.lean ====
/-
  The launch and the line after it, read as values.

  The program launches one kernel on a one-point grid: its two input windows stage the whole [12500, 128] arrays (the
  aggregated features `Ad` and the residual, both re-laid from [100000, 16]), its output window is a [1, 1] array. The body
  loads both blocks, subtracts, squares, sums each row of 128, sums the 12500 row sums and multiplies by the named
  reciprocal of the element count; one store covers the output block, and the one write-back covers the output array. The
  host line after the launch reads the [1, 1] array as a scalar.
  So the result is `(∑ over the [12500, 128] layout of (Ad - R)²) · (1/1600000)`, which is the mean of the squared
  residuals over the [100000, 16] arrays: the re-layout is a bijection of the index sets (`Cert.Loss.sumSq_lanes`).
-/
import proofs.«425443_j82978768159398_3_alg».proof.Proof.Gen.KernelIdeal.Frame
import proofs.«425443_j82978768159398_3_alg».proof.Proof.HostSide
import proofs.«425443_j82978768159398_3_alg».proof.Proof.Loss
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F] [Named F]

variable (m : (ℓ : Loc nD τ sig) → Buf (Elt F) ℓ) (ρ : Dev nD → PrngReg)

theorem hz : (![0, 0] : Fin 2 → Nat) = fun _ => 0 := funext fun a => by fin_cases a <;> rfl

/-- The body's one store covers the [1, 1] output block, so what it leaves there is its payload of the two loaded blocks. -/
theorem out_eq (x0 x1 : Vec F S12500x128 .f32) : out0_2 x0 x1 = k0_pay1 x0 x1 := by
  unfold out0_2
  rw [View.canon_unit_zero hz]
  simp only [View.ld_unit_zero (S := S12500x128) hz]

/-- The grid has one point, and each input window's block there is its whole array. -/
theorem iblk0_eq (c : Dev nD) (t : Fin cfg0.N) : iblk m c 0 t = V m c main_v12 := by
  obtain rfl := fin_N0 t
  unfold iblk
  have hz' : (fun a => win0_0.index t0_0 a * main_v12.ty.shape.size a) = fun _ => 0 := funext fun a => by fin_cases a <;> decide
  exact Memref.read_access_unit_zero (Elt F) main_v12 hz' (fun a => by rw [congrFun hz' a]; simp) (V m c main_v12)

theorem iblk1_eq (c : Dev nD) (t : Fin cfg0.N) : iblk m c 1 t = V m c main_v13 := by
  obtain rfl := fin_N0 t
  unfold iblk
  have hz' : (fun a => win0_1.index t0_0 a * main_v13.ty.shape.size a) = fun _ => 0 := funext fun a => by fin_cases a <;> decide
  exact Memref.read_access_unit_zero (Elt F) main_v13 hz' (fun a => by rw [congrFun hz' a]; simp) (V m c main_v13)

/-- The [1, 1] result of the launch: the payload of the two whole input arrays. -/
abbrev launched (c : Dev nD) : Buf (Elt F) ((c : Thread nD τ).loc main_v14) :=
  k0_pay1 (V m c main_v12) (V m c main_v13)

/-- The one write-back writes it: the output's block is its whole array. -/
theorem flushed_eq (c : Dev nD) (t : Fin cfg0.N) (hf : (cfg0.win 2).flush t = true) :
    (dats m 0 c).flushed 2 t = ((cfg0.win 2).blk t).view.read (Elt F) (launched m c) := by
  obtain rfl := fin_N0 t
  show (cfg0.win 2).cut (grid0.coords t0_0) ((dats m 0 c).after 2 t0_0) = _
  rw [after0_2, out_eq, iblk0_eq, iblk1_eq]
  have hz' : (fun a => win0_2.index t0_0 a * main_v14.ty.shape.size a) = fun _ => 0 := funext fun a => by fin_cases a <;> decide
  exact (Memref.read_access_unit_zero (Elt F) main_v14 hz' (fun a => by rw [congrFun hz' a]; simp) (launched m c)).symm

/-- A [1, 1] array has one index. -/
theorem one_index (i j : S1x1.Idx) : i = j := by
  funext a
  apply Fin.ext
  match a with
  | ⟨0, _⟩ =>
    have h1 : (i 0 : Nat) < 1 := (i 0).isLt
    have h2 : (j 0 : Nat) < 1 := (j 0).isLt
    show (i 0 : Nat) = (j 0 : Nat)
    omega
  | ⟨1, _⟩ =>
    have h1 : (i 1 : Nat) < 1 := (i 1).isLt
    have h2 : (j 1 : Nat) < 1 := (j 1).isLt
    show (i 1 : Nat) = (j 1 : Nat)
    omega

/-- So the output array ends holding it: the one write-back's block is not empty, and the array's one index is in it. -/
theorem final_out (c : Dev nD) : (dats m 0 c).arrAt 2 cfg0.N = launched m c :=
  (dats m 0 c).arrAt_eq_of_cover 2 (launched m c) (flushed_eq m c) fun i =>
    ⟨t0_0, flush0_2 t0_0, by
      have x : ((cfg0.win 2).xblock (grid0.coords t0_0)).Idx :=
        Shape.Idx.first (s := (cfg0.win 2).xblock (grid0.coords t0_0)) (by decide +kernel)
      rw [one_index i (((cfg0.win 2).blk t0_0).view.emb x)]
      exact ((cfg0.win 2).blk t0_0).view.emb_mem_set x⟩

/-- The host line after the launch reads the [1, 1] array as a scalar. -/
theorem tail_result (c : Dev nD) :
    (Pipeline.afterTail₀ cfgs (dats m) 0 (V0 m) [hostOps1] c main_v15 : S_.Idx → Elt F .f32)
      = shapeCast S_ (launched m c) shapeCasts_S1x1_S_ := by
  unfold Pipeline.afterTail₀
  show StableHlo.after hostOps1 _ (Proc.devRef .tc main_v15) = _
  after_results
  exact congrArg (fun X : S1x1.Idx → Elt F .f32 => shapeCast S_ X shapeCasts_S1x1_S_)
    ((Pipeline.withArrays_arr spec0 launch0.win.arr_inj c _ _ 2).trans (final_out m c))

/-- The run, read: the scalar result is the launch's [1, 1] output, the five arguments end as they began. -/
theorem run : θ_run defs (onTc (τ := τ) (main (F := F))) ⟨m, fun _ => 0, ρ⟩ fun r => ∀ c : Dev nD,
      r.2.mem ((c : Thread nD τ).loc main_v15) = shapeCast S_ (launched m c) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v15 (Pipeline.mem_restRefs_of main_v15 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## At the ideal values -/

section AtIdeal

open Cert.Loss

/-- The named reciprocal of the element count denotes 1/1600000. -/
theorem inv_count : Named.named (F := Ideal) κ "inv_1600000" (φ := .f32) 0x3527C5AC#32 = ((1 / 1600000 : ℝ) : EReal) :=
  IdealRules.named_const.ideal_named_scalar _ _ _ _ rfl

/-- The partial sums of a float reduction, added up, are the total. -/
theorem total_of_multiReduction {s t : Shape} {axes : List (Fin s.rank)} {φ : FTy} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  total_of_reduce h src

/-- The body's payload: the squares of the two blocks' differences summed along each row, the row sums summed, times the
    named reciprocal — the total of the squares times 1/1600000. -/
theorem pay_apply (v0 v2 : Vec Ideal S12500x128 .f32) (j : S1x1.Idx) :
    k0_pay1 (F := Ideal) v0 v2 j = (∑ i : S12500x128.Idx, (v0 i - v2 i) * (v0 i - v2 i)) * ((1 / 1600000 : ℝ) : EReal) := by
  unfold k0_pay1
  dsimp only
  refine congrArg₂ (fun a b : EReal => a * b) ?_ inv_count
  show multiReduction .add [0] S1 _ _ _ _ _ (Shape.reshapeEquiv _ j) = _
  refine (Ideal.multiReduction_add_total _ _ _ (fun b => by fin_cases b; rfl) _ _ _).trans ?_
  refine (total_of_cast _ _).trans ?_
  refine (total_of_multiReduction _ _ _ _ _).trans ?_
  refine Finset.sum_congr rfl fun i _ => ?_
  rw [shapeCast_self, shapeCast_self]
  rfl

variable (m : (ℓ : Loc nD τ sig) → Buf (Elt Ideal) ℓ) (ρ : Dev nD → PrngReg)

/-- The scalar result: the mean of the squared residuals of the host side's `Ad`. -/
theorem result_ideal (c : Dev nD) :
    (shapeCast S_ (launched m c) shapeCasts_S1x1_S_ : S_.Idx → EReal)
      = fun _ => meanSq (spmvK (m ((c : Thread nD τ).loc main_arg0)) (m ((c : Thread nD τ).loc main_arg1)) (m ((c : Thread nD τ).loc main_arg2)) (m ((c : Thread nD τ).loc main_arg3)))
          (m ((c : Thread nD τ).loc main_arg4)) := by
  funext i
  refine (pay_apply (V m c main_v12) (V m c main_v13) (Shape.reshapeEquiv shapeCasts_S1x1_S_ i)).trans ?_
  rw [V_lanes, V_resid]
  exact congrArg (fun x : EReal => x * ((1 / 1600000 : ℝ) : EReal)) (sumSq_lanes shapeCasts_S100000x16_S12500x128 _ _)

/-- The run at the ideal values: the result at that mean, the five arguments unchanged. -/
theorem run_ideal : θ_run defs (onTc (τ := τ) (main (F := Ideal))) ⟨m, fun _ => 0, ρ⟩ fun r => ∀ c : Dev nD,
      r.2.mem ((c : Thread nD τ).loc main_v15) = (fun _ => meanSq (spmvK (m ((c : Thread nD τ).loc main_arg0)) (m ((c : Thread nD τ).loc main_arg1)) (m ((c : Thread nD τ).loc main_arg2)) (m ((c : Thread nD τ).loc main_arg3)))
          (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (result_ideal m c), (h c).2⟩) (run m ρ)

end AtIdeal

end Cert.KernelIdeal.Hand

end
-- ==== Proof.Agree.lean ====
/-
  Where the two programs differ before the launch, and why they agree on the stated domain.

  The kernel program takes the rows `d[src]` with a take that fills a row with a fixed pattern when its start index,
  after a negative one is counted from the end, is outside `0 … 99999`; the reference gathers with the start index
  clamped into the table. The precondition's last two conjuncts say `-100000 ≤ src < 100000` for every edge (signed):
  then every wrapped start index is a row of the table (`Cert.Loss.wrap_in_range`), the take's range test is one at
  every edge, and the take is the plain gather (`taken_eq_rows`). Every other operation of the two host sides is the same
  operation on the same arrays (`spmv_agree`), so both programs form the same `Ad`.
  The reference then sums the squared residuals over all (n, f), from zero, and divides by 1600000: the mean
  (`Cert.ReferenceIdeal.Hand.result_eq`).
-/
import proofs.«425443_j82978768159398_3_alg».proof.Defs
import proofs.«425443_j82978768159398_3_alg».proof.Proof.HostSide
import proofs.«425443_j82978768159398_3_alg».proof.Proof.Loss
import proofs.«425443_j82978768159398_3_alg».proof.Proof.Gen.Pre_finite_inputs
import proofs.«425443_j82978768159398_3_alg».proof.Proof.Gen.ReferenceIdeal.Read
import Idealize.ShloMosaic.Lib.ValueIdx
import Idealize.ShloMosaic.Lib.ReduceAll

noncomputable section

open Idealize.ShloMosaic Idealize.ShloMosaic.TcCoe Idealize.SL.Sem

namespace Cert.KernelIdeal.Hand

open Cert.KernelIdeal Cert.KernelIdeal.Gen Cert.Loss Idealize.ShloMosaic.ValueIdx

variable {F : FTy → Type} [FloatOps F] [Named F]

/-- Every source index is in `[-100000, 100000)`, read signed. -/
def SrcInRange (s : (⟨S3200000, .i32⟩ : BufTy).Contents (Elt F)) : Prop :=
  ∀ i : S3200000.Idx, IntOp.cmpi .sge (s i) 4294867296#32 = 1#1 ∧ IntOp.cmpi .slt (s i) 100000#32 = 1#1

/-- Then every wrapped start index passes the take's range test. -/
theorem ok_of_inRange (s : (⟨S3200000, .i32⟩ : BufTy).Contents (Elt F)) (hs : SrcInRange (F := F) s) (i : S3200000.Idx) :
    okOf (F := F) (rowIdxOf (F := F) s) i = 1#1 := by
  unfold okOf
  refine reduce_andi_of_all _ _ _ _ i rfl (fun k => ?_)
  exact wrap_in_range _ (hs _).1 (hs _).2

/-- So the take returns the gathered rows everywhere: the fill pattern is never selected. -/
theorem taken_eq_rows (d : (⟨S100000x16, .f32⟩ : BufTy).Contents (Elt F)) (s : (⟨S3200000, .i32⟩ : BufTy).Contents (Elt F))
    (hs : SrcInRange (F := F) s) : takenOf d s = rowsOf d s := by
  funext j
  unfold takenOf
  show Scalar.select (okOf (F := F) (rowIdxOf (F := F) s) _) (rowsOf d s j) _ = _
  rw [ok_of_inRange s hs, select_one]

/-- The precondition, decoded: its last two conjuncts say every source index is in range. -/
theorem src_of_pre (a0 : (⟨S100000x16, .f32⟩ : BufTy).Contents (Elt F)) (a1 : (⟨S2x3200000, .i32⟩ : BufTy).Contents (Elt F))
    (a2 : (⟨S3200000, .f32⟩ : BufTy).Contents (Elt F)) (a3 : (⟨S3200000, .i1⟩ : BufTy).Contents (Elt F)) (a4 : (⟨S100000x16, .f32⟩ : BufTy).Contents (Elt F))
    (h : Cert.Pre_finite_inputs.fn (F := F) a0 a1 a2 a3 a4 = fun _ => 1#1) : SrcInRange (F := F) (edgeSrc (F := F) a1) := by
  intro i
  have h0 := congrFun h ValueIdx.ix0
  unfold Cert.Pre_finite_inputs.fn Cert.Pre_finite_inputs.fn_part1 at h0
  dsimp only at h0
  obtain ⟨h19, h24⟩ := IntOp.andi_eq_one.mp h0
  obtain ⟨-, h18⟩ := IntOp.andi_eq_one.mp h19
  haveI : Subsingleton Cert.Pre_finite_inputs.S_.Idx := ⟨fun a b => funext fun d => d.elim0⟩
  exact ⟨Host.reduce_andi_all _ _ _ _ _ h18 i, Host.reduce_andi_all _ _ _ _ _ h24 i⟩

/-! ## Against the reference -/

section Against

open Cert.ReferenceIdeal.Read

variable (d : (⟨S100000x16, .f32⟩ : BufTy).Contents (Elt Ideal)) (e : (⟨S2x3200000, .i32⟩ : BufTy).Contents (Elt Ideal))
  (a : (⟨S3200000, .f32⟩ : BufTy).Contents (Elt Ideal)) (k : (⟨S3200000, .i1⟩ : BufTy).Contents (Elt Ideal))

/-- The two programs' records of the gather and of the scatter hold the same dimension numbers. -/
theorem gather_same : gather_S100000x16_S3200000x1_S3200000x16_1_0_n_n_0_1_116
    = Cert.ReferenceIdeal.gather_S100000x16_S3200000x1_S3200000x16_1_0_n_n_0_1_116 := rfl
theorem scatter_same : scatter_S100000x16_S3200000x1_S3200000x16_1_0_0_1
    = Cert.ReferenceIdeal.scatter_S100000x16_S3200000x1_S3200000x16_1_0_0_1 := rfl

/-- Stage by stage the kernel's host side and the reference apply the same operations to the same arrays: the zero
    operand of the scatter, the destinations' column, the weights along the features, the start indices, the rows. -/
theorem zero_same : (broadcastInDim S100000x16 ![] bcast_S_S100000x16 (constant (F := Ideal) S_ .f32 0x00000000#32))
    = val_main_v16 (F := Ideal) := rfl
theorem dst_same : (broadcastInDim S3200000x1 ![0] bcast_S3200000_S3200000x1_0 (edgeDst (F := Ideal) e))
    = val_main_v17 (F := Ideal) e := rfl
theorem weights_same : (broadcastInDim S3200000x16 ![0, 1] bcast_S3200000x1_S3200000x16_0_1
      (broadcastInDim S3200000x1 ![0] bcast_S3200000_S3200000x1_0 (weightsOf (F := Ideal) a k (constant (F := Ideal) S_ .f32 0x00000000#32))))
    = val_main_v14 (F := Ideal) a k := rfl
theorem idx_same : rowIdxOf (F := Ideal) (edgeSrc (F := Ideal) e) = val_main_v12 (F := Ideal) e := rfl
theorem rows_same : rowsOf (F := Ideal) d (edgeSrc (F := Ideal) e) = val_main_v13 (F := Ideal) d e := by
  unfold rowsOf val_main_v13
  rw [idx_same, gather_same]

/-- With every source in range, the kernel's host side computes the reference's `Ad`: only the take's select differs,
    and it returns the gathered rows. -/
theorem spmv_agree (hs : SrcInRange (F := Ideal) (edgeSrc (F := Ideal) e)) :
    spmvK (F := Ideal) d e a k = val_main_v18 (F := Ideal) d e a k := by
  unfold spmvK spmvOf val_main_v18 val_main_v15
  rw [taken_eq_rows d _ hs, rows_same, weights_same, dst_same, zero_same, scatter_same]

end Against

end Cert.KernelIdeal.Hand

namespace Cert.ReferenceIdeal.Hand

open Cert.ReferenceIdeal Cert.ReferenceIdeal.Gen Cert.ReferenceIdeal.Read Cert.Loss

/-- The reference's result: the mean of the squared residuals of its `Ad`. The sum over all (n, f) from zero is the
    total, and the quotient by 1600000 is the product with 1/1600000. -/
theorem result_eq (x0 : (⟨S100000x16, .f32⟩ : BufTy).Contents (Elt Ideal)) (x1 : (⟨S2x3200000, .i32⟩ : BufTy).Contents (Elt Ideal))
    (x2 : (⟨S3200000, .f32⟩ : BufTy).Contents (Elt Ideal)) (x3 : (⟨S3200000, .i1⟩ : BufTy).Contents (Elt Ideal))
    (x4 : (⟨S100000x16, .f32⟩ : BufTy).Contents (Elt Ideal)) :
    val_main_v22 (F := Ideal) x0 x1 x2 x3 x4 = fun _ => meanSq (val_main_v18 (F := Ideal) x0 x1 x2 x3) x4 := by
  funext i
  rw [val_main_v22_apply, val_main_v21_apply]
  have hz : (val_main_cst_2 (F := Ideal)) (Shape.Idx.first h_S_) = 0 := Ideal.ofBits_zero_f32
  have hc : val_main_cst_3 (F := Ideal) i = Ideal.ofBits .f32 0x49C35000#32 := rfl
  rw [hz, zero_add, hc]
  simp only [Ideal.hostDivf_def]
  rw [div_by_count]
  unfold meanSq sumSq
  refine congrArg (fun x : EReal => x * ((1 / 1600000 : ℝ) : EReal)) (Finset.sum_congr rfl fun j _ => ?_)
  rw [val_main_v20_apply, val_main_v19_apply]
  simp only [Ideal.mulf_def, Ideal.subf_def]

end Cert.ReferenceIdeal.Hand

end
-- ==== Proof.lean ====
/-
  The kernel program and its reference compute one loss.

  Both form `Ad[dst] += (mask ? a : 0) · d[src]` over 3,200,000 edges and return the mean of `(Ad - residual)²` over the
  1,600,000 node features. The kernel program does the gather and the scatter-add with ordinary array operations and only
  the mean inside a launched kernel, on the arrays re-laid as [12500, 128]: rows of 128 summed, the row sums summed, the
  total multiplied by the reciprocal of the count, which its idealization names `1/1600000`.

  * The frames of the two kernel programs are the generated ones; the reference's is its generated run with the result
    dropped.
  * `preserves`: the one rewrite of the idealization is the named reciprocal, whose value the certificate's table gives.
  * `algebraic`: the kernel program's result is `meanSq Ad_k residual` (Proof/Launched.lean, over Proof/HostSide.lean), the
    reference's is `meanSq Ad_r residual` (Proof/Agree.lean), and `Ad_k = Ad_r` where every source index is in
    `[-100000, 100000)`, which the precondition states (Proof/Agree.lean): outside that range the kernel program's take
    fills a row with a fixed pattern where the reference's gather clamps the index. Neither the regrouping of the sum nor
    the reciprocal needs the entries to be finite (Proof/Loss.lean).
-/
import proofs.«425443_j82978768159398_3_alg».proof.Defs
import proofs.«425443_j82978768159398_3_alg».proof.Proof.Gen.Kernel
import proofs.«425443_j82978768159398_3_alg».proof.Proof.Gen.Kernel.Skeleton
import proofs.«425443_j82978768159398_3_alg».proof.Proof.Gen.Kernel.Launch
import proofs.«425443_j82978768159398_3_alg».proof.Proof.Gen.Kernel.Points
import proofs.«425443_j82978768159398_3_alg».proof.Proof.Gen.Kernel.Frame
import proofs.«425443_j82978768159398_3_alg».proof.Proof.Gen.KernelIdeal
import proofs.«425443_j82978768159398_3_alg».proof.Proof.Gen.KernelIdeal.Skeleton
import proofs.«425443_j82978768159398_3_alg».proof.Proof.Gen.KernelIdeal.Launch
import proofs.«425443_j82978768159398_3_alg».proof.Proof.Gen.KernelIdeal.Points
import proofs.«425443_j82978768159398_3_alg».proof.Proof.Gen.KernelIdeal.Frame
import proofs.«425443_j82978768159398_3_alg».proof.Proof.Gen.ReferenceIdeal
import proofs.«425443_j82978768159398_3_alg».proof.Proof.Gen.Pre_finite_inputs
import proofs.«425443_j82978768159398_3_alg».proof.Proof.Gen.ReferenceIdeal.Run
import proofs.«425443_j82978768159398_3_alg».proof.Proof.Gen.ReferenceIdeal.Read
import proofs.«425443_j82978768159398_3_alg».proof.Proof.Loss
import proofs.«425443_j82978768159398_3_alg».proof.Proof.HostSide
import proofs.«425443_j82978768159398_3_alg».proof.Proof.Launched
import proofs.«425443_j82978768159398_3_alg».proof.Proof.Agree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The one rewrite: the certificate's table gives the name the value 1/1600000. -/
theorem preserves : Cert.preserves_Kernel_KernelIdeal :=
  IdealRules.named_const.statement Cert.KernelIdeal.κ "inv_1600000" .f32 0x3527C5AC#32 ((1 / 1600000 : ℝ) : EReal) rfl

/-- Both results are the mean of the squared residuals of one `Ad`. -/
theorem algebraic : Cert.algebraic_KernelIdeal_ReferenceIdeal := by
  intro m ρ m' ρ' hpre hagree
  refine ⟨_, Cert.KernelIdeal.Hand.run_ideal m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v22_eq, Cert.ReferenceIdeal.Hand.result_eq, e0, e1, e2, e3, e4,
    Cert.KernelIdeal.Hand.spmv_agree _ _ _ _ (Cert.KernelIdeal.Hand.src_of_pre _ _ _ _ _ (hpre c))]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
